-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S4096x2048 : Shape := ⟨2, ![4096, 2048]⟩
abbrev S4096 : Shape := ⟨1, ![4096]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S1024x2048 .f32) (main_arg1 : FVec F S4096x2048 .f32) (main_arg2 : FVec F S4096 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S1024x2048 : Shape := ⟨2, ![1024, 2048]⟩
abbrev S4096x2048 : Shape := ⟨2, ![4096, 2048]⟩
abbrev S4096 : Shape := ⟨1, ![4096]⟩
abbrev S2048x4096 : Shape := ⟨2, ![2048, 4096]⟩
abbrev S1x4096 : Shape := ⟨2, ![1, 4096]⟩
abbrev S1024x4096 : Shape := ⟨2, ![1024, 4096]⟩
abbrev S1024x512 : Shape := ⟨2, ![1024, 512]⟩
abbrev S512x512 : Shape := ⟨2, ![512, 512]⟩
abbrev S1x512 : Shape := ⟨2, ![1, 512]⟩
abbrev S1024x1 : Shape := ⟨2, ![1024, 1]⟩
abbrev S1024 : Shape := ⟨1, ![1024]⟩
abbrev S512 : Shape := ⟨1, ![512]⟩

abbrev nBuf : Space → Nat
  | .hbm => 7
  | .vmem => 11
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S4096, .f32⟩
  | .hbm, ⟨3, _⟩ => ⟨S2048x4096, .f32⟩
  | .hbm, ⟨4, _⟩ => ⟨S4096x2048, .f32⟩
  | .hbm, ⟨5, _⟩ => ⟨S1x4096, .f32⟩
  | .hbm, ⟨6, _⟩ => ⟨S1024x4096, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x1, .f32⟩
  | .local _ .vmem, ⟨10, _⟩ => ⟨S1x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v31 : BitVec 1 := Scalar.cmpi .eq arg1 c3_i32
  let v32 : BitVec 32 := Scalar.extui v31
  let c0_i32_18 : BitVec 32 := 0#32
  let v33 : BitVec 1 := Scalar.cmpi .ne v32 c0_i32_18
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  transposes_S4096x2048_S2048x4096_1_0 : S4096x2048.Transposes [1, 0] S2048x4096
  shapeCasts_S2048x4096_S4096x2048 : S2048x4096.ShapeCasts S4096x2048
  shapeCasts_S4096_S1x4096 : S4096.ShapeCasts S1x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  transposes_S512x512_p1_0_S512x512 : S512x512.Transposes [1, 0] S512x512
  reduces_S1024x512_S1024 : S1024x512.Reduces [1] S1024
  shapeCasts_S1024_S1024x1 : S1024.ShapeCasts S1024x1
  reduces_S512x512_S512 : S512x512.Reduces [1] S512
  shapeCasts_S512_S1x512 : S512.ShapeCasts S1x512
  broadcasts_S1024x1_S1024x512 : S1024x1.Broadcasts S1024x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S1024x2048.size a
  hwx0_0 : ∀ i : grid0.Coords, EltTy.bits .f32 = 32 ∨ (Rect.block (s := S1024x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x2048.size a
  hwx0_1 : ∀ i : grid0.Coords, EltTy.bits .f32 = 32 ∨ (Rect.block (s := S4096x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x4096.size a
  hwx0_2 : ∀ i : grid0.Coords, EltTy.bits .f32 = 32 ∨ (Rect.block (s := S1x4096) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x4096.size a
  hwx0_3 : ∀ i : grid0.Coords, EltTy.bits .f32 = 32 ∨ (Rect.block (s := S1024x4096) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1024x2048 : Shape := ⟨2, ![1024, 2048]⟩
abbrev S4096x2048 : Shape := ⟨2, ![4096, 2048]⟩
abbrev S4096 : Shape := ⟨1, ![4096]⟩
abbrev S2048x4096 : Shape := ⟨2, ![2048, 4096]⟩
abbrev S_ : Shape := ⟨0, ![]⟩
abbrev S1024 : Shape := ⟨1, ![1024]⟩
abbrev S1024x1 : Shape := ⟨2, ![1024, 1]⟩
abbrev S1x4096 : Shape := ⟨2, ![1, 4096]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4096x2048, .f32⟩
  | .hbm, ⟨2, _⟩ => ⟨S4096, .f32⟩
  | .hbm, ⟨3, _⟩ => ⟨S2048x4096, .f32⟩
  | .hbm, ⟨4, _⟩ => ⟨S4096x2048, .f32⟩
  | .hbm, ⟨5, _⟩ => ⟨S1024x2048, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S1024x4096, .f32⟩
  | .hbm, ⟨14, _⟩ => ⟨S_, .f32⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S1024x4096, .f32⟩
  | .hbm, ⟨20, _⟩ => ⟨S1024x4096, .f32⟩
  | .hbm, ⟨21, _⟩ => ⟨S1024x4096, .f32⟩
  | .hbm, ⟨22, _⟩ => ⟨S1x4096, .f32⟩
  | .hbm, ⟨23, _⟩ => ⟨S1024x4096, .f32⟩
  | .hbm, ⟨24, _⟩ => ⟨S1024x4096, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]

class Facts₀ : Prop where
  transposes_S4096x2048_S2048x4096_1_0 : S4096x2048.Transposes [1, 0] S2048x4096
  shapeCasts_S2048x4096_S4096x2048 : S2048x4096.ShapeCasts S4096x2048
  reducesTo_S1024x2048_S1024_d1 : S1024x2048.ReducesTo [1] S1024
  h_S_ : 0 < S_.numel
  bcast_S1024_S1024x1_0 : S1024.BroadcastsInDim S1024x1 (![0] : Fin 1 → Fin S1024x1.rank)
  reducesTo_S4096x2048_S4096_d1 : S4096x2048.ReducesTo [1] S4096
  bcast_S4096_S1x4096_1 : S4096.BroadcastsInDim S1x4096 (![1] : Fin 1 → Fin S1x4096.rank)
  bcast_S_S1024x4096 : S_.BroadcastsInDim S1024x4096 (![] : Fin 0 → Fin S1024x4096.rank)
  bcast_S1024x1_S1024x4096_0_1 : S1024x1.BroadcastsInDim S1024x4096 (![0, 1] : Fin 2 → Fin S1024x4096.rank)
  bcast_S1x4096_S1024x4096_0_1 : S1x4096.BroadcastsInDim S1024x4096 (![0, 1] : Fin 2 → Fin S1024x4096.rank)
  dot_S1024x2048_S4096x2048_S1024x4096_1_1_0_0_n_n_wf : DotDims.WF S1024x2048 S4096x2048 S1024x4096 [1] [1] [0] [0] [] []

variable [Facts₀]

def dot_S1024x2048_S4096x2048_S1024x4096_1_1_0_0_n_n : DotDims S1024x2048 S4096x2048 S1024x4096 where
  lhsContracting := [1]
  rhsContracting := [1]
  lhsNonContracting := [0]
  rhsNonContracting := [0]
  lhsBatch := []
  rhsBatch := []
  wf := dot_S1024x2048_S4096x2048_S1024x4096_1_1_0_0_n_n_wf

class Facts : Prop extends Facts₀ where

variable [Facts]
-- ==== Proof.StepValues.lean ====
/-
  What one grid step leaves behind, as plain values of what it read.

  The body keeps three running quantities in scratch memory across the four steps `k = 0 … 3` of a column block:
  the partial products `acc` (1024 × 512), the partial row sums of squares of `x` (1024 × 1), and the partial row sums of
  squares of the prototype block (1 × 512). Every step adds its block's contribution to each of them; the first step
  of a column block starts each from a zero splat instead of from what the scratch held; the last step, after adding,
  also combines the three finished quantities with the bias block into the output block.

  Each statement below says: the contents a step leaves in one buffer are that buffer's update term applied to the
  step's input blocks and to the contents the scratch held before — because every store of the body writes its whole
  buffer and every load reads a whole buffer.
-/
import proofs.«162144_j1580547974287_1_alg».proof.Proof.Gen.KernelIdeal.Frame
import Idealize.ShloMosaic.Lib.Pipeline.Value
import Idealize.ShloMosaic.Lib.Tactic

noncomputable section

namespace Cert.KernelIdeal.StepValues

open Cert.KernelIdeal Cert.KernelIdeal.Gen Idealize.ShloMosaic Idealize.ShloMosaic.TcCoe Idealize.SL.Sem Idealize.ShloMosaic.Tactic

variable {F : FTy → Type} [FloatOps F]

/-- Every access of the body starts at the origin of its buffer. -/
theorem hz : (![0, 0] : Fin 2 → Nat) = fun _ => 0 := funext fun a => by fin_cases a <;> rfl

/-! ## The first step of a column block: each running quantity starts from the zero splat -/

/-- The partial products after the first step: the zero splat plus this block's product. -/
theorem acc_first (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : cond0_0 i) (hc1 : ¬cond0_1 i) (x0 : Vec F S1024x512 .f32) (x1 : Vec F S512x512 .f32) (x2 : Vec F S1x512 .f32) :
    sout0_A_0 c i arg2 harg2 arg3 harg3 arg4 harg4 arg5 harg5 arg6 harg6 arg7 harg7 arg8 harg8 hc0 hc1 x0 x1 x2 = k0_pay6 x0 x1 k0_pay2 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x512) hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-- The partial sums of squares of `x`'s rows after the first step: the zero splat plus this block's. -/
theorem rowsq_first (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : cond0_0 i) (hc1 : ¬cond0_1 i) (x0 : Vec F S1024x512 .f32) (x1 : Vec F S512x512 .f32) (x2 : Vec F S1x512 .f32) :
    sout0_A_1 c i arg2 harg2 arg3 harg3 arg4 harg4 arg5 harg5 arg6 harg6 arg7 harg7 arg8 harg8 hc0 hc1 x0 x1 x2 = k0_pay7 x0 k0_pay3 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-- The partial sums of squares of the prototype rows after the first step: the zero splat plus this block's. -/
theorem colsq_first (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : cond0_0 i) (hc1 : ¬cond0_1 i) (x0 : Vec F S1024x512 .f32) (x1 : Vec F S512x512 .f32) (x2 : Vec F S1x512 .f32) :
    sout0_A_2 c i arg2 harg2 arg3 harg3 arg4 harg4 arg5 harg5 arg6 harg6 arg7 harg7 arg8 harg8 hc0 hc1 x0 x1 x2 = k0_pay8 x1 k0_pay4 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1x512) hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-! ## A middle step: each running quantity is what it was plus this block's contribution -/

/-- The partial products after a middle step. -/
theorem acc_next (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : ¬cond0_0 i) (hc1 : ¬cond0_1 i) (x0 : Vec F S1024x512 .f32) (x1 : Vec F S512x512 .f32) (x2 : Vec F S1x512 .f32) (xs0 : Vec F S1024x512 .f32) (xs1 : Vec F S1024x1 .f32) (xs2 : Vec F S1x512 .f32) :
    sout0_B_0 c i arg2 harg2 arg3 harg3 arg4 harg4 arg5 harg5 arg6 harg6 arg7 harg7 arg8 harg8 hc0 hc1 x0 x1 x2 xs0 xs1 xs2 = k0_pay6 x0 x1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-- The partial sums of squares of `x`'s rows after a middle step. -/
theorem rowsq_next (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : ¬cond0_0 i) (hc1 : ¬cond0_1 i) (x0 : Vec F S1024x512 .f32) (x1 : Vec F S512x512 .f32) (x2 : Vec F S1x512 .f32) (xs0 : Vec F S1024x512 .f32) (xs1 : Vec F S1024x1 .f32) (xs2 : Vec F S1x512 .f32) :
    sout0_B_1 c i arg2 harg2 arg3 harg3 arg4 harg4 arg5 harg5 arg6 harg6 arg7 harg7 arg8 harg8 hc0 hc1 x0 x1 x2 xs0 xs1 xs2 = k0_pay7 x0 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-- The partial sums of squares of the prototype rows after a middle step. -/
theorem colsq_next (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : ¬cond0_0 i) (hc1 : ¬cond0_1 i) (x0 : Vec F S1024x512 .f32) (x1 : Vec F S512x512 .f32) (x2 : Vec F S1x512 .f32) (xs0 : Vec F S1024x512 .f32) (xs1 : Vec F S1024x1 .f32) (xs2 : Vec F S1x512 .f32) :
    sout0_B_2 c i arg2 harg2 arg3 harg3 arg4 harg4 arg5 harg5 arg6 harg6 arg7 harg7 arg8 harg8 hc0 hc1 x0 x1 x2 xs0 xs1 xs2 = k0_pay8 x1 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-! ## The last step: the same updates, and the output block from the three finished quantities -/

/-- The partial products after the last step. -/
theorem acc_last (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : ¬cond0_0 i) (hc1 : cond0_1 i) (x0 : Vec F S1024x512 .f32) (x1 : Vec F S512x512 .f32) (x2 : Vec F S1x512 .f32) (xs0 : Vec F S1024x512 .f32) (xs1 : Vec F S1024x1 .f32) (xs2 : Vec F S1x512 .f32) :
    sout0_C_0 c i arg2 harg2 arg3 harg3 arg4 harg4 arg5 harg5 arg6 harg6 arg7 harg7 arg8 harg8 hc0 hc1 x0 x1 x2 xs0 xs1 xs2 = k0_pay6 x0 x1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-- The sums of squares of `x`'s rows after the last step. -/
theorem rowsq_last (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : ¬cond0_0 i) (hc1 : cond0_1 i) (x0 : Vec F S1024x512 .f32) (x1 : Vec F S512x512 .f32) (x2 : Vec F S1x512 .f32) (xs0 : Vec F S1024x512 .f32) (xs1 : Vec F S1024x1 .f32) (xs2 : Vec F S1x512 .f32) :
    sout0_C_1 c i arg2 harg2 arg3 harg3 arg4 harg4 arg5 harg5 arg6 harg6 arg7 harg7 arg8 harg8 hc0 hc1 x0 x1 x2 xs0 xs1 xs2 = k0_pay7 x0 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-- The sums of squares of the prototype rows after the last step. -/
theorem colsq_last (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : ¬cond0_0 i) (hc1 : cond0_1 i) (x0 : Vec F S1024x512 .f32) (x1 : Vec F S512x512 .f32) (x2 : Vec F S1x512 .f32) (xs0 : Vec F S1024x512 .f32) (xs1 : Vec F S1024x1 .f32) (xs2 : Vec F S1x512 .f32) :
    sout0_C_2 c i arg2 harg2 arg3 harg3 arg4 harg4 arg5 harg5 arg6 harg6 arg7 harg7 arg8 harg8 hc0 hc1 x0 x1 x2 xs0 xs1 xs2 = k0_pay8 x1 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

/-- The output block the last step stores: the combination of the three quantities AS THIS STEP HAS JUST UPDATED THEM (it reads each scratch back after storing it) with the bias block. -/
theorem out_last (c : Dev nD) (i : grid0.Coords) (arg2 : Memref sig .tc .vmem S1024x512 .f32) (harg2 : arg2.IsWhole) (arg3 : Memref sig .tc .vmem S512x512 .f32) (harg3 : arg3.IsWhole) (arg4 : Memref sig .tc .vmem S1x512 .f32) (harg4 : arg4.IsWhole) (arg5 : Memref sig .tc .vmem S1024x512 .f32) (harg5 : arg5.IsWhole) (arg6 : Memref sig .tc .vmem S1024x512 .f32) (harg6 : arg6.IsWhole) (arg7 : Memref sig .tc .vmem S1024x1 .f32) (harg7 : arg7.IsWhole) (arg8 : Memref sig .tc .vmem S1x512 .f32) (harg8 : arg8.IsWhole) (hc0 : ¬cond0_0 i) (hc1 : cond0_1 i) (x0 : Vec F S1024x512 .f32) (x1 : Vec F S512x512 .f32) (x2 : Vec F S1x512 .f32) (xs0 : Vec F S1024x512 .f32) (xs1 : Vec F S1024x1 .f32) (xs2 : Vec F S1x512 .f32) :
    out0_C_3 c i arg2 harg2 arg3 harg3 arg4 harg4 arg5 harg5 arg6 harg6 arg7 harg7 arg8 harg8 hc0 hc1 x0 x1 x2 xs0 xs1 xs2 = k0_pay1 (k0_pay7 x0 xs1) (k0_pay6 x0 x1 xs0) (k0_pay8 x1 xs2) x2 := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero hz]
  simp only [View.readAt_eq_ld, harg2.read_unread, harg3.read_unread, harg4.read_unread, harg6.read_unread, harg7.read_unread, harg8.read_unread,
    View.readCov_unit_zero (S := S1024x512) _ hz, View.readCov_unit_zero (S := S1024x1) _ hz, View.readCov_unit_zero (S := S1x512) _ hz,
    View.ld_unit_zero (S := S1024x512) hz, View.ld_unit_zero (S := S512x512) hz, View.ld_unit_zero (S := S1024x1) hz, View.ld_unit_zero (S := S1x512) hz]

end Cert.KernelIdeal.StepValues

end
-- ==== Proof.LibColumn.lean ====
/-
  Two layout operations read at an index, for a COLUMN `[a, 1]`: what a sum over rows "with the axis kept" produces.
  General in the extents; they complement the library's row forms (`[a] → [1, a]`, `[1, b] → [a, b]`).
-/
import Idealize.ShloMosaic.Lib.ValueIdx
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.BlockSum.lean ====
/-
  A sum over the 2048 positions of the long axis, taken as four consecutive blocks of 512, is the same sum:
  addition is a commutative monoid (on the extended reals too), so the grouping into blocks does not matter.
  The block a grid point works on is named by the point's number: point `n` holds block `n % 4` of the long axis and
  column block `n / 4` of the output, so the four points `b, b+1, b+2, b+3` of one run (`b` a multiple of four) hold
  the four blocks of the long axis in order, for one column block.
-/
import Mathlib.Algebra.BigOperators.Fin
import Mathlib.Algebra.BigOperators.Group.Finset.Basic
import Mathlib.Logic.Equiv.Fin.Basic

namespace Cert.BlockSum

open Finset

/-- Position `e` of the block that point `n` holds: `512 * (n % 4) + e` on the long axis. -/
def pos (n : ℕ) (e : Fin 512) : Fin 2048 :=
  ⟨512 * (n % 4) + e.val, by have := Nat.mod_lt n (by decide : 0 < 4); have := e.isLt; omega⟩

@[simp] theorem pos_val (n : ℕ) (e : Fin 512) : (pos n e).val = 512 * (n % 4) + e.val := rfl

/-- Which block a point holds depends only on the point's number modulo four. -/
theorem pos_add (b s : ℕ) (hb : b % 4 = 0) (e : Fin 512) : pos (b + s) e = pos s e :=
  Fin.ext (by simp only [pos_val]; omega)

/-- Column `q` of the column block that point `n` works on: `512 * (n / 4 % 8) + q` of the 4096 columns. -/
def col (n : ℕ) (q : Fin 512) : Fin 4096 :=
  ⟨512 * (n / 4 % 8) + q.val, by have := Nat.mod_lt (n / 4) (by decide : 0 < 8); have := q.isLt; omega⟩

@[simp] theorem col_val (n : ℕ) (q : Fin 512) : (col n q).val = 512 * (n / 4 % 8) + q.val := rfl

/-- The four points of one run work on the same column block. -/
theorem col_add (b s : ℕ) (hb : b % 4 = 0) (hs : s < 4) (q : Fin 512) : col (b + s) q = col b q :=
  Fin.ext (by simp only [col_val]; omega)

/-- The sum over the long axis is the sum over the four blocks of the sums inside each block. -/
theorem sum_blocks {M : Type*} [AddCommMonoid M] (f : Fin 2048 → M) :
    ∑ d : Fin 2048, f d = ∑ k : Fin 4, ∑ e : Fin 512, f (pos k.val e) := by
  rw [← (finProdFinEquiv (m := 4) (n := 512)).sum_comp f, Fintype.sum_prod_type]
  refine Finset.sum_congr rfl fun k _ => Finset.sum_congr rfl fun e _ => congrArg f (Fin.ext ?_)
  have := k.isLt
  simp only [finProdFinEquiv_apply_val, pos_val]
  omega

/-- The four points of one run, starting at a multiple of four, add up the whole long axis. -/
theorem sum_run {M : Type*} [AddCommMonoid M] (f : Fin 2048 → M) (b : ℕ) (hb : b % 4 = 0) :
    ∑ s ∈ Finset.range 4, ∑ e : Fin 512, f (pos (b + s) e) = ∑ d : Fin 2048, f d := by
  rw [sum_blocks, Finset.sum_range]
  exact Finset.sum_congr rfl fun k _ => Finset.sum_congr rfl fun e _ => by rw [pos_add b k.val hb]

end Cert.BlockSum
-- ==== Proof.Spec.lean ====
/-
  THE RESULT, as one function of the three arrays, index by index, over the extended reals:

      out(p, o) = −( (rows(p) − 2 · prod(p, o)) + cols(o) ) − bias(o)
      rows(p)   = 0 + ∑_d x(p, d)²          prod(p, o) = ∑_d x(p, d) · w(o, d)          cols(o) = 0 + ∑_d w(o, d)²

  with `d` over the 2048 positions of the long axis, `x` the input and `w` the prototypes (the weights transposed and
  re-laid as 4096 rows of 2048, the same plumbing on both sides, never opened here). The literal words of `0.0` and
  `2.0` are kept as words.

  The kernel reaches the same value another way: for the column block that holds `o` it accumulates each of the three
  sums from zero over the four 512-long blocks of the long axis, and negates by subtracting from zero. Since addition
  on the extended reals is a commutative monoid (`⊥ + ⊤ = ⊥` included), a sum accumulated block by block from zero is
  the sum; and `0 − v = −v`. No distributivity and no cancellation is used, so no finiteness of the inputs either.
-/
import proofs.«162144_j1580547974287_1_alg».proof.Proof.BlockSum
import Idealize.ShloMosaic.Lib.ValueIdx
import Idealize.ShloMosaic.PureOps.Ideal.Laws

noncomputable section

namespace Cert.Spec

open Idealize.ShloMosaic Idealize.ShloMosaic.ValueIdx Cert.BlockSum Finset

/-- The words of `+0.0` and of `2.0`, as the extended reals they denote. -/
abbrev zeroW : EReal := Ideal.ofBits .f32 0x00000000#32
abbrev twoW : EReal := Ideal.ofBits .f32 0x40000000#32

/-- The result at row `p`, column `o`. -/
def G (X : (⟨2, ![1024, 2048]⟩ : Shape).Idx → EReal) (W : (⟨2, ![4096, 2048]⟩ : Shape).Idx → EReal) (B : Fin 4096 → EReal)
    (p : Fin 1024) (o : Fin 4096) : EReal :=
  (-(((zeroW + ∑ d : Fin 2048, X (ix2 p d) * X (ix2 p d)) - twoW * ∑ d : Fin 2048, X (ix2 p d) * W (ix2 o d))
      + (zeroW + ∑ d : Fin 2048, W (ix2 o d) * W (ix2 o d)))) - B o

/-- The same value as the kernel arranges it, for column `q` of the column block whose run starts at point `b`: each
    sum accumulated from zero over the run's four points, the negation a subtraction from zero. -/
def Gblocks (X : (⟨2, ![1024, 2048]⟩ : Shape).Idx → EReal) (W : (⟨2, ![4096, 2048]⟩ : Shape).Idx → EReal) (B : Fin 4096 → EReal)
    (b : ℕ) (p : Fin 1024) (q : Fin 512) : EReal :=
  (zeroW - (((zeroW + ∑ s ∈ range 4, ∑ e : Fin 512, X (ix2 p (pos (b + s) e)) * X (ix2 p (pos (b + s) e)))
        - twoW * (zeroW + ∑ s ∈ range 4, ∑ e : Fin 512, X (ix2 p (pos (b + s) e)) * W (ix2 (col (b + s) q) (pos (b + s) e))))
      + (zeroW + ∑ s ∈ range 4, ∑ e : Fin 512, W (ix2 (col (b + s) q) (pos (b + s) e)) * W (ix2 (col (b + s) q) (pos (b + s) e)))))
    - B (col b q)

/-- The two arrangements agree. -/
theorem Gblocks_eq (X : (⟨2, ![1024, 2048]⟩ : Shape).Idx → EReal) (W : (⟨2, ![4096, 2048]⟩ : Shape).Idx → EReal) (B : Fin 4096 → EReal)
    (b : ℕ) (hb : b % 4 = 0) (p : Fin 1024) (q : Fin 512) : Gblocks X W B b p q = G X W B p (col b q) := by
  have e1 : ∑ s ∈ range 4, ∑ e : Fin 512, X (ix2 p (pos (b + s) e)) * X (ix2 p (pos (b + s) e))
      = ∑ d : Fin 2048, X (ix2 p d) * X (ix2 p d) := sum_run (fun d => X (ix2 p d) * X (ix2 p d)) b hb
  have e2 : ∑ s ∈ range 4, ∑ e : Fin 512, X (ix2 p (pos (b + s) e)) * W (ix2 (col (b + s) q) (pos (b + s) e))
      = ∑ d : Fin 2048, X (ix2 p d) * W (ix2 (col b q) d) := by
    rw [← sum_run (fun d => X (ix2 p d) * W (ix2 (col b q) d)) b hb]
    exact sum_congr rfl fun s hs => by rw [col_add b s hb (mem_range.mp hs)]
  have e3 : ∑ s ∈ range 4, ∑ e : Fin 512, W (ix2 (col (b + s) q) (pos (b + s) e)) * W (ix2 (col (b + s) q) (pos (b + s) e))
      = ∑ d : Fin 2048, W (ix2 (col b q) d) * W (ix2 (col b q) d) := by
    rw [← sum_run (fun d => W (ix2 (col b q) d) * W (ix2 (col b q) d)) b hb]
    exact sum_congr rfl fun s hs => by rw [col_add b s hb (mem_range.mp hs)]
  unfold Gblocks G
  rw [e1, e2, e3]
  simp only [Ideal.ofBits_zero_f32, zero_add, zero_sub]

end Cert.Spec

end
-- ==== Proof.StepAlgebra.lean ====
/-
  The body's four update terms read at one index, over the extended reals (where a change of float format is the
  identity and every operation is the exact one).

  With `x` the step's block of the input (1024 × 512), `w` its block of the prototypes (512 × 512), at row `p` and
  column `q`:
    products        (p, q) ↦ old + ∑ₑ x(p, e) · w(q, e)      (the matrix product with the transposed prototype block,
                                                             into a zero accumulator: just the sum over the 512 positions)
    row squares     (p, ·) ↦ old + ∑ₑ x(p, e)²
    column squares  (·, q) ↦ old + ∑ₑ w(q, e)²
    output          (p, q) ↦ (0 − ((rows(p) − 2 · prod(p, q)) + cols(q))) − bias(q)
  and the three zero splats the first step starts from read `0`'s word everywhere.
-/
import proofs.«162144_j1580547974287_1_alg».proof.Proof.Gen.KernelIdeal.Skeleton
import proofs.«162144_j1580547974287_1_alg».proof.Proof.LibColumn
import proofs.«162144_j1580547974287_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StepAlgebra

open Cert.KernelIdeal Cert.KernelIdeal.Gen Idealize.ShloMosaic Idealize.ShloMosaic.ValueIdx Cert.LibColumn Cert.Spec

/-! ## The product's operand indices: row `p` and position `e` on the left, position `e` and column `q` on the right -/

theorem lhs_row (i : S1024x512.Idx) (k : dot_S1024x512_S512x512_S1024x512_1_0_0_1_n_n.contr.Idx) :
    (dot_S1024x512_S512x512_S1024x512_1_0_0_1_n_n.lhsIdx i k 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_pos (i : S1024x512.Idx) (k : dot_S1024x512_S512x512_S1024x512_1_0_0_1_n_n.contr.Idx) :
    (dot_S1024x512_S512x512_S1024x512_1_0_0_1_n_n.lhsIdx i k 1).val = (k ⟨0, by decide⟩).val :=
  dot_S1024x512_S512x512_S1024x512_1_0_0_1_n_n.lhsIdx_val_of_single rfl i k
theorem rhs_pos (i : S1024x512.Idx) (k : dot_S1024x512_S512x512_S1024x512_1_0_0_1_n_n.contr.Idx) :
    (dot_S1024x512_S512x512_S1024x512_1_0_0_1_n_n.rhsIdx i k 0).val = (k ⟨0, by decide⟩).val :=
  dot_S1024x512_S512x512_S1024x512_1_0_0_1_n_n.rhsIdx_val_of_single rfl i k
theorem rhs_col (i : S1024x512.Idx) (k : dot_S1024x512_S512x512_S1024x512_1_0_0_1_n_n.contr.Idx) :
    (dot_S1024x512_S512x512_S1024x512_1_0_0_1_n_n.rhsIdx i k 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of a block with a transposed block, into the zero accumulator, at `(p, q)`: the sum over the 512
    positions of `l(p, e) · r(q, e)`. -/
theorem matmul_transposed_apply (l : FVec Ideal S1024x512 .bf16) (r : FVec Ideal S512x512 .bf16) (p : Fin 1024) (q : Fin 512) :
    matmul dot_S1024x512_S512x512_S1024x512_1_0_0_1_n_n none l (transpose S512x512 [1, 0] r transposes_S512x512_p1_0_S512x512)
        (constant S1024x512 .f32 0x00000000#32) (ix2 p q)
      = ∑ e : Fin 512, l (ix2 p e) * r (ix2 q e) := by
  simp only [matmul]
  rw [Ideal.matmul_constant_zero_apply, ← Equiv.sum_comp (contrEquiv1 dot_S1024x512_S512x512_S1024x512_1_0_0_1_n_n 512 rfl rfl).symm]
  refine Finset.sum_congr rfl fun e _ => ?_
  have hk := contrEquiv1_symm_val dot_S1024x512_S512x512_S1024x512_1_0_0_1_n_n 512 rfl rfl e
  have el : dot_S1024x512_S512x512_S1024x512_1_0_0_1_n_n.lhsIdx (ix2 p q) ((contrEquiv1 dot_S1024x512_S512x512_S1024x512_1_0_0_1_n_n 512 rfl rfl).symm e) = ix2 p e := funext fun a => Fin.ext (by
    match a with
    | ⟨0, _⟩ => exact lhs_row _ _
    | ⟨1, _⟩ => exact (lhs_pos _ _).trans hk)
  have er : dot_S1024x512_S512x512_S1024x512_1_0_0_1_n_n.rhsIdx (ix2 p q) ((contrEquiv1 dot_S1024x512_S512x512_S1024x512_1_0_0_1_n_n 512 rfl rfl).symm e) = ix2 e q := funext fun a => Fin.ext (by
    match a with
    | ⟨0, _⟩ => exact (rhs_pos _ _).trans hk
    | ⟨1, _⟩ => exact rhs_col _ _)
  rw [el, er, transpose_ix2_apply]

/-- A sum along the rows of a 1024 × 512 block, at row `p`. -/
theorem rowSum_apply (v : FVec Ideal S1024x512 .f32) (hφ : FKind.Formats .f32) (hacc : (0x00000000#32 : BitVec 32) = 0x00000000#32) (p : Fin 1024) :
    multiReduction .add [1] S1024 v 0x00000000#32 reduces_S1024x512_S1024 hφ hacc (ix1 p) = ∑ e : Fin 512, v (ix2 p e) := by
  refine (Ideal.multiReduction_add_single v 0x00000000#32 reduces_S1024x512_S1024 hφ hacc (ix1 p)).trans ?_
  exact Finset.sum_congr rfl fun e _ => congrArg v (funext fun a => Fin.ext (by match a with | ⟨0, _⟩ => rfl | ⟨1, _⟩ => rfl))

/-- A sum along the rows of a 512 × 512 block, at row `q`. -/
theorem colSum_apply (v : FVec Ideal S512x512 .f32) (hφ : FKind.Formats .f32) (hacc : (0x00000000#32 : BitVec 32) = 0x00000000#32) (q : Fin 512) :
    multiReduction .add [1] S512 v 0x00000000#32 reduces_S512x512_S512 hφ hacc (ix1 q) = ∑ e : Fin 512, v (ix2 q e) := by
  refine (Ideal.multiReduction_add_single v 0x00000000#32 reduces_S512x512_S512 hφ hacc (ix1 q)).trans ?_
  exact Finset.sum_congr rfl fun e _ => congrArg v (funext fun a => Fin.ext (by match a with | ⟨0, _⟩ => rfl | ⟨1, _⟩ => rfl))

/-! ## The four update terms at an index -/

/-- The partial products after a step. -/
theorem prod_step (x : FVec Ideal S1024x512 .f32) (w : FVec Ideal S512x512 .f32) (old : FVec Ideal S1024x512 .f32) (p : Fin 1024) (q : Fin 512) :
    k0_pay6 (F := Ideal) x w old (ix2 p q) = old (ix2 p q) + ∑ e : Fin 512, x (ix2 p e) * w (ix2 q e) := by
  unfold k0_pay6 k0_pay5
  simp only [shapeCast_self]
  show old (ix2 p q) + matmul dot_S1024x512_S512x512_S1024x512_1_0_0_1_n_n none (truncf .bf16 x bitsLt_bf16_f32) (transpose S512x512 [1, 0] (truncf .bf16 w bitsLt_bf16_f32) transposes_S512x512_p1_0_S512x512) (constant S1024x512 .f32 0x00000000#32) (ix2 p q) = _
  rw [matmul_transposed_apply]
  rfl

/-- The partial sums of squares of the input's rows after a step (a column: the unit coordinate `u` is free). -/
theorem rowsq_step (x : FVec Ideal S1024x512 .f32) (old : FVec Ideal S1024x1 .f32) (p : Fin 1024) (u : Fin 1) :
    k0_pay7 (F := Ideal) x old (ix2 p u) = old (ix2 p u) + ∑ e : Fin 512, x (ix2 p e) * x (ix2 p e) := by
  unfold k0_pay7
  simp only [shapeCast_self]
  show old (ix2 p u) + shapeCast S1024x1 (multiReduction .add [1] S1024 (mulf x x) 0x00000000#32 reduces_S1024x512_S1024 (.inl rfl) rfl) shapeCasts_S1024_S1024x1 (ix2 p u) = _
  rw [shapeCast_a_a1_apply, rowSum_apply]
  rfl

/-- The partial sums of squares of the prototype rows after a step (a row: the unit coordinate `u` is free). -/
theorem colsq_step (w : FVec Ideal S512x512 .f32) (old : FVec Ideal S1x512 .f32) (u : Fin 1) (q : Fin 512) :
    k0_pay8 (F := Ideal) w old (ix2 u q) = old (ix2 u q) + ∑ e : Fin 512, w (ix2 q e) * w (ix2 q e) := by
  unfold k0_pay8 k0_pay5
  simp only [shapeCast_self]
  show old (ix2 u q) + shapeCast S1x512 (multiReduction .add [1] S512 (mulf w w) 0x00000000#32 reduces_S512x512_S512 (.inl rfl) rfl) shapeCasts_S512_S1x512 (ix2 u q) = _
  rw [shapeCast_a_1a_apply, colSum_apply]
  rfl

/-- The output block from the three finished quantities and the bias block. -/
theorem out_step (rows : FVec Ideal S1024x1 .f32) (prod : FVec Ideal S1024x512 .f32) (cols : FVec Ideal S1x512 .f32) (bias : FVec Ideal S1x512 .f32)
    (p : Fin 1024) (q : Fin 512) :
    k0_pay1 (F := Ideal) rows prod cols bias (ix2 p q)
      = (zeroW - ((rows (ix2 p (0 : Fin 1)) - twoW * prod (ix2 p q)) + cols (ix2 (0 : Fin 1) q))) - bias (ix2 (0 : Fin 1) q) := by
  unfold k0_pay1
  simp only [shapeCast_self]
  show (zeroW - ((broadcastTo S1024x512 rows broadcasts_S1024x1_S1024x512 (ix2 p q) - twoW * prod (ix2 p q)) + broadcastTo S1024x512 cols broadcasts_S1x512_S1024x512 (ix2 p q)))
      - broadcastTo S1024x512 bias broadcasts_S1x512_S1024x512 (ix2 p q) = _
  rw [broadcastTo_a1_ab_apply, broadcastTo_1b_ab_apply, broadcastTo_1b_ab_apply]

/-- The zero splats the first step starts the three quantities from. -/
theorem zero_prod (i : S1024x512.Idx) : (k0_pay2 (F := Ideal)) i = zeroW := by
  unfold k0_pay2; simp only [shapeCast_self]; rfl
theorem zero_rows (i : S1024x1.Idx) : (k0_pay3 (F := Ideal)) i = zeroW := by
  unfold k0_pay3; simp only [shapeCast_self]; rfl
theorem zero_cols (i : S1x512.Idx) : (k0_pay4 (F := Ideal)) i = zeroW := by
  unfold k0_pay4; simp only [shapeCast_self]; rfl

end Cert.KernelIdeal.StepAlgebra

end
-- ==== Proof.Blocks.lean ====
/-
  Which entries of its array a window's block holds at grid point `t` (of 32: `t = 4 j + k`, column block `j`,
  long-axis block `k`):
    the input's block         rows all, positions `512 k + e`
    the prototypes' block     rows `512 j + q`, positions `512 k + e`
    the bias's block          columns `512 j + q` of its one row
    the output's block        rows all, columns `512 j + q`
  The four index maps are decided once over the grid; a block's coordinate is always index × size + the coordinate
  inside the block.
-/
import proofs.«162144_j1580547974287_1_alg».proof.Proof.Gen.KernelIdeal.Frame
import proofs.«162144_j1580547974287_1_alg».proof.Proof.BlockSum
import Idealize.ShloMosaic.Lib.ValueIdx
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.BlockSum

variable {F : FTy → Type} [FloatOps F]
variable (m : (ℓ : Loc nD τ sig) → Buf (Elt F) ℓ)

/-! ## The index maps over the grid -/

theorem idx_x : ∀ t : Fin cfg0.N, win0_0.index t (0 : Fin 2) = 0 ∧ win0_0.index t (1 : Fin 2) = t.val % 4 :=
  (by decide +kernel : ∀ t : Fin grid0.N, win0_0.index t (0 : Fin 2) = 0 ∧ win0_0.index t (1 : Fin 2) = t.val % 4)
theorem idx_w : ∀ t : Fin cfg0.N, win0_1.index t (0 : Fin 2) = t.val / 4 ∧ win0_1.index t (1 : Fin 2) = t.val % 4 :=
  (by decide +kernel : ∀ t : Fin grid0.N, win0_1.index t (0 : Fin 2) = t.val / 4 ∧ win0_1.index t (1 : Fin 2) = t.val % 4)
theorem idx_b : ∀ t : Fin cfg0.N, win0_2.index t (0 : Fin 2) = 0 ∧ win0_2.index t (1 : Fin 2) = t.val / 4 :=
  (by decide +kernel : ∀ t : Fin grid0.N, win0_2.index t (0 : Fin 2) = 0 ∧ win0_2.index t (1 : Fin 2) = t.val / 4)
theorem idx_o : ∀ t : Fin cfg0.N, win0_3.index t (0 : Fin 2) = 0 ∧ win0_3.index t (1 : Fin 2) = t.val / 4 :=
  (by decide +kernel : ∀ t : Fin grid0.N, win0_3.index t (0 : Fin 2) = 0 ∧ win0_3.index t (1 : Fin 2) = t.val / 4)

theorem lt32 (t : Fin cfg0.N) : t.val < 32 := lt_of_lt_of_eq t.isLt (show cfg0.N = 32 from N_0)

/-! ## The arrays as the region finds them, and the blocks, at their literal types -/

abbrev xarr (c : Dev nD) : Vec F S1024x2048 .f32 := V m c main_arg0
abbrev warr (c : Dev nD) : Vec F S4096x2048 .f32 := V m c main_v1
abbrev barr (c : Dev nD) : Vec F S1x4096 .f32 := V m c main_v2
abbrev xblk (c : Dev nD) (t : Fin cfg0.N) : Vec F S1024x512 .f32 := iblk m c 0 t
abbrev wblk (c : Dev nD) (t : Fin cfg0.N) : Vec F S512x512 .f32 := iblk m c 1 t
abbrev bblk (c : Dev nD) (t : Fin cfg0.N) : Vec F S1x512 .f32 := iblk m c 2 t

/-- The input's block at point `t`: row `p`, position `e` of the block is position `512 (t % 4) + e` of the row. -/
theorem xblk_apply (c : Dev nD) (t : Fin cfg0.N) (p : Fin 1024) (e : Fin 512) :
    xblk m c t (ix2 p e) = xarr m c (ix2 p (pos t.val e)) := by
  show ((cfg0.win 0).blk t).view.read (Elt F) (V m c main_arg0) (ix2 p e) = _
  rw [View.read_apply]
  refine congrArg (V m c main_arg0) (funext fun a => Fin.ext ?_)
  match a with
  | ⟨0, _⟩ => show win0_0.index t 0 * 1024 + 1 * p.val = p.val; rw [(idx_x t).1]; omega
  | ⟨1, _⟩ => show win0_0.index t 1 * 512 + 1 * e.val = 512 * (t.val % 4) + e.val; rw [(idx_x t).2]; omega

/-- The prototypes' block at point `t`: its row `q` is row `512 (t / 4) + q`, its position `e` position `512 (t % 4) + e`. -/
theorem wblk_apply (c : Dev nD) (t : Fin cfg0.N) (q : Fin 512) (e : Fin 512) :
    wblk m c t (ix2 q e) = warr m c (ix2 (col t.val q) (pos t.val e)) := by
  show ((cfg0.win 1).blk t).view.read (Elt F) (V m c main_v1) (ix2 q e) = _
  rw [View.read_apply]
  refine congrArg (V m c main_v1) (funext fun a => Fin.ext ?_)
  have := lt32 t
  match a with
  | ⟨0, _⟩ => show win0_1.index t 0 * 512 + 1 * q.val = 512 * (t.val / 4 % 8) + q.val; rw [(idx_w t).1]; omega
  | ⟨1, _⟩ => show win0_1.index t 1 * 512 + 1 * e.val = 512 * (t.val % 4) + e.val; rw [(idx_w t).2]; omega

/-- The bias's block at point `t`: column `q` of the block is column `512 (t / 4) + q` of the one row. -/
theorem bblk_apply (c : Dev nD) (t : Fin cfg0.N) (u : Fin 1) (q : Fin 512) :
    bblk m c t (ix2 u q) = barr m c (ix2 (0 : Fin 1) (col t.val q)) := by
  show ((cfg0.win 2).blk t).view.read (Elt F) (V m c main_v2) (ix2 u q) = _
  rw [View.read_apply]
  refine congrArg (V m c main_v2) (funext fun a => Fin.ext ?_)
  have := lt32 t
  have hu : u.val = 0 := by omega
  match a with
  | ⟨0, _⟩ => show win0_2.index t 0 * 1 + 1 * u.val = 0; rw [(idx_b t).1]; omega
  | ⟨1, _⟩ => show win0_2.index t 1 * 512 + 1 * q.val = 512 * (t.val / 4 % 8) + q.val; rw [(idx_b t).2]; omega

end Cert.KernelIdeal.Blocks

end
-- ==== Proof.Fold.lean ====
/-
  What each of the three running quantities holds after grid point `t`, at an index: zero plus the sum, over the
  points of `t`'s run so far (the run starts at the multiple of four below `t`, where the quantity is reset), of
  that point's contribution. The contribution of point `n` is a sum over the 512 positions of the long-axis block
  that `n` holds, of entries of the WHOLE arrays — the blocks are read where they sit in their arrays.
-/
import proofs.«162144_j1580547974287_1_alg».proof.Proof.Gen.KernelIdeal.Value
import proofs.«162144_j1580547974287_1_alg».proof.Proof.StepValues
import proofs.«162144_j1580547974287_1_alg».proof.Proof.StepAlgebra
import proofs.«162144_j1580547974287_1_alg».proof.Proof.Blocks

noncomputable section

namespace Cert.KernelIdeal.Fold

open Cert.KernelIdeal Cert.KernelIdeal.Gen Cert.KernelIdeal.Value Idealize.ShloMosaic Idealize.ShloMosaic.TcCoe Idealize.SL.Sem
open Idealize.ShloMosaic.ValueIdx Cert.BlockSum Cert.Spec Cert.KernelIdeal.Blocks Cert.KernelIdeal.StepAlgebra Cert.KernelIdeal.StepValues

variable (m : (ℓ : Loc nD τ sig) → Buf (Elt Ideal) ℓ)

/-! ## Running quantity 0 -/

/-- Point `n`'s contribution at an index: the products of the input's row with the prototype row over the positions of point `n`'s block. -/
def prodTerm (c : Dev nD) (n : ℕ) (i : S1024x512.Idx) : EReal :=
  ∑ e : Fin 512, xarr m c (ix2 (i 0) (pos n e)) * warr m c (ix2 (col n (i 1)) (pos n e))

/-- At the first point of a run the quantity is reset: zero plus that point's contribution, whatever it held. -/
theorem prod_reset (c : Dev nD) (n : ℕ) (hn : n < cfg0.N) (h0 : n % 4 = 0) (acc : Vec Ideal S1024x512 .f32) (i : S1024x512.Idx) :
    scAt0_0 m c n hn acc i = zeroW + prodTerm m c n i := by
  have h1 : ¬n % 4 = 3 := by omega
  unfold scAt0_0 prodTerm
  rw [dif_pos h0, dif_neg h1]
  refine (congrFun (acc_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (xblk m c (⟨n, hn⟩ : Fin cfg0.N)) (wblk m c (⟨n, hn⟩ : Fin cfg0.N)) (bblk m c (⟨n, hn⟩ : Fin cfg0.N))) i).trans ?_
  obtain ⟨p, q, rfl⟩ : ∃ (p : Fin 1024) (q : Fin 512), i = ix2 p q := ⟨i 0, i 1, eq_ix2 i⟩
  refine (prod_step (xblk m c (⟨n, hn⟩ : Fin cfg0.N)) (wblk m c (⟨n, hn⟩ : Fin cfg0.N)) (k0_pay2 (F := Ideal)) p q).trans ?_
  rw [zero_prod]
  refine congrArg (zeroW + ·) (Finset.sum_congr rfl fun e _ => ?_)
  rw [xblk_apply, wblk_apply]

/-- At every other point of the run the point's contribution is added to what the point before left. -/
theorem prod_add (c : Dev nD) (n : ℕ) (hn : n < cfg0.N) (h0 : ¬n % 4 = 0) (acc : Vec Ideal S1024x512 .f32) (i : S1024x512.Idx) :
    scAt0_0 m c n hn acc i = acc i + prodTerm m c n i := by
  unfold scAt0_0 prodTerm
  rw [dif_neg h0]
  obtain ⟨p, q, rfl⟩ : ∃ (p : Fin 1024) (q : Fin 512), i = ix2 p q := ⟨i 0, i 1, eq_ix2 i⟩
  by_cases h1 : n % 4 = 3
  · rw [dif_pos h1]
    refine (congrFun (acc_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) ((hcond0_1 (⟨n, hn⟩ : Fin cfg0.N)).mpr h1) (xblk m c (⟨n, hn⟩ : Fin cfg0.N)) (wblk m c (⟨n, hn⟩ : Fin cfg0.N)) (bblk m c (⟨n, hn⟩ : Fin cfg0.N)) acc (outsAt0 m c ((⟨n, hn⟩ : Fin cfg0.N).val - 1) (Nat.lt_of_le_of_lt (Nat.sub_le _ _) (⟨n, hn⟩ : Fin cfg0.N).isLt)).2.2.1 (outsAt0 m c ((⟨n, hn⟩ : Fin cfg0.N).val - 1) (Nat.lt_of_le_of_lt (Nat.sub_le _ _) (⟨n, hn⟩ : Fin cfg0.N).isLt)).2.2.2) (ix2 p q)).trans ?_
    refine (prod_step (xblk m c (⟨n, hn⟩ : Fin cfg0.N)) (wblk m c (⟨n, hn⟩ : Fin cfg0.N)) acc p q).trans ?_
    refine congrArg (acc (ix2 p q) + ·) (Finset.sum_congr rfl fun e _ => ?_)
    rw [xblk_apply, wblk_apply]
  · rw [dif_neg h1]
    refine (congrFun (acc_next (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) (fun h => h1 ((hcond0_1 (⟨n, hn⟩ : Fin cfg0.N)).mp h)) (xblk m c (⟨n, hn⟩ : Fin cfg0.N)) (wblk m c (⟨n, hn⟩ : Fin cfg0.N)) (bblk m c (⟨n, hn⟩ : Fin cfg0.N)) acc (outsAt0 m c ((⟨n, hn⟩ : Fin cfg0.N).val - 1) (Nat.lt_of_le_of_lt (Nat.sub_le _ _) (⟨n, hn⟩ : Fin cfg0.N).isLt)).2.2.1 (outsAt0 m c ((⟨n, hn⟩ : Fin cfg0.N).val - 1) (Nat.lt_of_le_of_lt (Nat.sub_le _ _) (⟨n, hn⟩ : Fin cfg0.N).isLt)).2.2.2) (ix2 p q)).trans ?_
    refine (prod_step (xblk m c (⟨n, hn⟩ : Fin cfg0.N)) (wblk m c (⟨n, hn⟩ : Fin cfg0.N)) acc p q).trans ?_
    refine congrArg (acc (ix2 p q) + ·) (Finset.sum_congr rfl fun e _ => ?_)
    rw [xblk_apply, wblk_apply]

/-- After point `t`: zero plus the contributions of the points of `t`'s run up to `t`. -/
theorem prod_after (c : Dev nD) (t : Fin cfg0.N) (i : S1024x512.Idx) :
    (outsAt0 m c t.val t.isLt).2.1 i
      = zeroW + ∑ s ∈ Finset.range (t.val % 4 + 1), prodTerm m c (4 * (t.val / 4) + s) i := by
  refine (congrFun (soutsAt0_0_eq m c t) i).trans ?_
  exact Pipeline.accAt_add_apply _ _ (fun _ => zeroW) (prodTerm m c) (4 * (t.val / 4)) 3
    (fun h i => prod_reset m c _ h (by omega) _ i)
    (fun n h acc i hb he => prod_add m c n h (by omega) acc i)
    (t.val % 4) (by omega) _ i

/-! ## Running quantity 1 -/

/-- Point `n`'s contribution at an index: the squares of the input's row over the positions of point `n`'s block. -/
def rowsqTerm (c : Dev nD) (n : ℕ) (i : S1024x1.Idx) : EReal :=
  ∑ e : Fin 512, xarr m c (ix2 (i 0) (pos n e)) * xarr m c (ix2 (i 0) (pos n e))

/-- At the first point of a run the quantity is reset: zero plus that point's contribution, whatever it held. -/
theorem rowsq_reset (c : Dev nD) (n : ℕ) (hn : n < cfg0.N) (h0 : n % 4 = 0) (acc : Vec Ideal S1024x1 .f32) (i : S1024x1.Idx) :
    scAt0_1 m c n hn acc i = zeroW + rowsqTerm m c n i := by
  have h1 : ¬n % 4 = 3 := by omega
  unfold scAt0_1 rowsqTerm
  rw [dif_pos h0, dif_neg h1]
  refine (congrFun (rowsq_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (xblk m c (⟨n, hn⟩ : Fin cfg0.N)) (wblk m c (⟨n, hn⟩ : Fin cfg0.N)) (bblk m c (⟨n, hn⟩ : Fin cfg0.N))) i).trans ?_
  obtain ⟨p, u, rfl⟩ : ∃ (p : Fin 1024) (u : Fin 1), i = ix2 p u := ⟨i 0, i 1, eq_ix2 i⟩
  refine (rowsq_step (xblk m c (⟨n, hn⟩ : Fin cfg0.N)) (k0_pay3 (F := Ideal)) p u).trans ?_
  rw [zero_rows]
  refine congrArg (zeroW + ·) (Finset.sum_congr rfl fun e _ => ?_)
  rw [xblk_apply]

/-- At every other point of the run the point's contribution is added to what the point before left. -/
theorem rowsq_add (c : Dev nD) (n : ℕ) (hn : n < cfg0.N) (h0 : ¬n % 4 = 0) (acc : Vec Ideal S1024x1 .f32) (i : S1024x1.Idx) :
    scAt0_1 m c n hn acc i = acc i + rowsqTerm m c n i := by
  unfold scAt0_1 rowsqTerm
  rw [dif_neg h0]
  obtain ⟨p, u, rfl⟩ : ∃ (p : Fin 1024) (u : Fin 1), i = ix2 p u := ⟨i 0, i 1, eq_ix2 i⟩
  by_cases h1 : n % 4 = 3
  · rw [dif_pos h1]
    refine (congrFun (rowsq_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) ((hcond0_1 (⟨n, hn⟩ : Fin cfg0.N)).mpr h1) (xblk m c (⟨n, hn⟩ : Fin cfg0.N)) (wblk m c (⟨n, hn⟩ : Fin cfg0.N)) (bblk m c (⟨n, hn⟩ : Fin cfg0.N)) (outsAt0 m c ((⟨n, hn⟩ : Fin cfg0.N).val - 1) (Nat.lt_of_le_of_lt (Nat.sub_le _ _) (⟨n, hn⟩ : Fin cfg0.N).isLt)).2.1 acc (outsAt0 m c ((⟨n, hn⟩ : Fin cfg0.N).val - 1) (Nat.lt_of_le_of_lt (Nat.sub_le _ _) (⟨n, hn⟩ : Fin cfg0.N).isLt)).2.2.2) (ix2 p u)).trans ?_
    refine (rowsq_step (xblk m c (⟨n, hn⟩ : Fin cfg0.N)) acc p u).trans ?_
    refine congrArg (acc (ix2 p u) + ·) (Finset.sum_congr rfl fun e _ => ?_)
    rw [xblk_apply]
  · rw [dif_neg h1]
    refine (congrFun (rowsq_next (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) (fun h => h1 ((hcond0_1 (⟨n, hn⟩ : Fin cfg0.N)).mp h)) (xblk m c (⟨n, hn⟩ : Fin cfg0.N)) (wblk m c (⟨n, hn⟩ : Fin cfg0.N)) (bblk m c (⟨n, hn⟩ : Fin cfg0.N)) (outsAt0 m c ((⟨n, hn⟩ : Fin cfg0.N).val - 1) (Nat.lt_of_le_of_lt (Nat.sub_le _ _) (⟨n, hn⟩ : Fin cfg0.N).isLt)).2.1 acc (outsAt0 m c ((⟨n, hn⟩ : Fin cfg0.N).val - 1) (Nat.lt_of_le_of_lt (Nat.sub_le _ _) (⟨n, hn⟩ : Fin cfg0.N).isLt)).2.2.2) (ix2 p u)).trans ?_
    refine (rowsq_step (xblk m c (⟨n, hn⟩ : Fin cfg0.N)) acc p u).trans ?_
    refine congrArg (acc (ix2 p u) + ·) (Finset.sum_congr rfl fun e _ => ?_)
    rw [xblk_apply]

/-- After point `t`: zero plus the contributions of the points of `t`'s run up to `t`. -/
theorem rowsq_after (c : Dev nD) (t : Fin cfg0.N) (i : S1024x1.Idx) :
    (outsAt0 m c t.val t.isLt).2.2.1 i
      = zeroW + ∑ s ∈ Finset.range (t.val % 4 + 1), rowsqTerm m c (4 * (t.val / 4) + s) i := by
  refine (congrFun (soutsAt0_1_eq m c t) i).trans ?_
  exact Pipeline.accAt_add_apply _ _ (fun _ => zeroW) (rowsqTerm m c) (4 * (t.val / 4)) 3
    (fun h i => rowsq_reset m c _ h (by omega) _ i)
    (fun n h acc i hb he => rowsq_add m c n h (by omega) acc i)
    (t.val % 4) (by omega) _ i

/-! ## Running quantity 2 -/

/-- Point `n`'s contribution at an index: the squares of the prototype row over the positions of point `n`'s block. -/
def colsqTerm (c : Dev nD) (n : ℕ) (i : S1x512.Idx) : EReal :=
  ∑ e : Fin 512, warr m c (ix2 (col n (i 1)) (pos n e)) * warr m c (ix2 (col n (i 1)) (pos n e))

/-- At the first point of a run the quantity is reset: zero plus that point's contribution, whatever it held. -/
theorem colsq_reset (c : Dev nD) (n : ℕ) (hn : n < cfg0.N) (h0 : n % 4 = 0) (acc : Vec Ideal S1x512 .f32) (i : S1x512.Idx) :
    scAt0_2 m c n hn acc i = zeroW + colsqTerm m c n i := by
  have h1 : ¬n % 4 = 3 := by omega
  unfold scAt0_2 colsqTerm
  rw [dif_pos h0, dif_neg h1]
  refine (congrFun (colsq_first (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) ((hcond0_0 (⟨n, hn⟩ : Fin cfg0.N)).mpr h0) (fun h => h1 ((hcond0_1 (⟨n, hn⟩ : Fin cfg0.N)).mp h)) (xblk m c (⟨n, hn⟩ : Fin cfg0.N)) (wblk m c (⟨n, hn⟩ : Fin cfg0.N)) (bblk m c (⟨n, hn⟩ : Fin cfg0.N))) i).trans ?_
  obtain ⟨u, q, rfl⟩ : ∃ (u : Fin 1) (q : Fin 512), i = ix2 u q := ⟨i 0, i 1, eq_ix2 i⟩
  refine (colsq_step (wblk m c (⟨n, hn⟩ : Fin cfg0.N)) (k0_pay4 (F := Ideal)) u q).trans ?_
  rw [zero_cols]
  refine congrArg (zeroW + ·) (Finset.sum_congr rfl fun e _ => ?_)
  rw [wblk_apply]

/-- At every other point of the run the point's contribution is added to what the point before left. -/
theorem colsq_add (c : Dev nD) (n : ℕ) (hn : n < cfg0.N) (h0 : ¬n % 4 = 0) (acc : Vec Ideal S1x512 .f32) (i : S1x512.Idx) :
    scAt0_2 m c n hn acc i = acc i + colsqTerm m c n i := by
  unfold scAt0_2 colsqTerm
  rw [dif_neg h0]
  obtain ⟨u, q, rfl⟩ : ∃ (u : Fin 1) (q : Fin 512), i = ix2 u q := ⟨i 0, i 1, eq_ix2 i⟩
  by_cases h1 : n % 4 = 3
  · rw [dif_pos h1]
    refine (congrFun (colsq_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) ((hcond0_1 (⟨n, hn⟩ : Fin cfg0.N)).mpr h1) (xblk m c (⟨n, hn⟩ : Fin cfg0.N)) (wblk m c (⟨n, hn⟩ : Fin cfg0.N)) (bblk m c (⟨n, hn⟩ : Fin cfg0.N)) (outsAt0 m c ((⟨n, hn⟩ : Fin cfg0.N).val - 1) (Nat.lt_of_le_of_lt (Nat.sub_le _ _) (⟨n, hn⟩ : Fin cfg0.N).isLt)).2.1 (outsAt0 m c ((⟨n, hn⟩ : Fin cfg0.N).val - 1) (Nat.lt_of_le_of_lt (Nat.sub_le _ _) (⟨n, hn⟩ : Fin cfg0.N).isLt)).2.2.1 acc) (ix2 u q)).trans ?_
    refine (colsq_step (wblk m c (⟨n, hn⟩ : Fin cfg0.N)) acc u q).trans ?_
    refine congrArg (acc (ix2 u q) + ·) (Finset.sum_congr rfl fun e _ => ?_)
    rw [wblk_apply]
  · rw [dif_neg h1]
    refine (congrFun (colsq_next (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) scM0_0 (Memref.isWhole_whole _) scM0_1 (Memref.isWhole_whole _) scM0_2 (Memref.isWhole_whole _) (fun h => h0 ((hcond0_0 (⟨n, hn⟩ : Fin cfg0.N)).mp h)) (fun h => h1 ((hcond0_1 (⟨n, hn⟩ : Fin cfg0.N)).mp h)) (xblk m c (⟨n, hn⟩ : Fin cfg0.N)) (wblk m c (⟨n, hn⟩ : Fin cfg0.N)) (bblk m c (⟨n, hn⟩ : Fin cfg0.N)) (outsAt0 m c ((⟨n, hn⟩ : Fin cfg0.N).val - 1) (Nat.lt_of_le_of_lt (Nat.sub_le _ _) (⟨n, hn⟩ : Fin cfg0.N).isLt)).2.1 (outsAt0 m c ((⟨n, hn⟩ : Fin cfg0.N).val - 1) (Nat.lt_of_le_of_lt (Nat.sub_le _ _) (⟨n, hn⟩ : Fin cfg0.N).isLt)).2.2.1 acc) (ix2 u q)).trans ?_
    refine (colsq_step (wblk m c (⟨n, hn⟩ : Fin cfg0.N)) acc u q).trans ?_
    refine congrArg (acc (ix2 u q) + ·) (Finset.sum_congr rfl fun e _ => ?_)
    rw [wblk_apply]

/-- After point `t`: zero plus the contributions of the points of `t`'s run up to `t`. -/
theorem colsq_after (c : Dev nD) (t : Fin cfg0.N) (i : S1x512.Idx) :
    (outsAt0 m c t.val t.isLt).2.2.2 i
      = zeroW + ∑ s ∈ Finset.range (t.val % 4 + 1), colsqTerm m c (4 * (t.val / 4) + s) i := by
  refine (congrFun (soutsAt0_2_eq m c t) i).trans ?_
  exact Pipeline.accAt_add_apply _ _ (fun _ => zeroW) (colsqTerm m c) (4 * (t.val / 4)) 3
    (fun h i => colsq_reset m c _ h (by omega) _ i)
    (fun n h acc i hb he => colsq_add m c n h (by omega) acc i)
    (t.val % 4) (by omega) _ i

end Cert.KernelIdeal.Fold

end
-- ==== Proof.KernelValue.lean ====
/-
  THE KERNEL'S RESULT ARRAY. The output's block is written back only at the last point of each run (`t % 4 = 3`); what
  that point stores is the combination of the three running quantities as the run has finished them, each zero plus the
  contributions of the run's four points — the blockwise arrangement of the specification, for the run's column block.
  The eight write-backs (one per column block) tile the 1024 × 4096 array, so it ends holding the specification.
-/
import proofs.«162144_j1580547974287_1_alg».proof.Proof.Fold
import proofs.«162144_j1580547974287_1_alg».proof.Proof.Spec

noncomputable section

namespace Cert.KernelIdeal.KernelValue

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.BlockSum Cert.Spec Cert.KernelIdeal.Blocks Cert.KernelIdeal.StepAlgebra Cert.KernelIdeal.StepValues Cert.KernelIdeal.Fold

variable (m : (ℓ : Loc nD τ sig) → Buf (Elt Ideal) ℓ) (ρ : Dev nD → PrngReg)

/-- The bias as a function of the column: the one row of the re-laid bias array. -/
abbrev biasOf (c : Dev nD) : Fin 4096 → EReal := fun o => barr m c (ix2 (0 : Fin 1) o)

/-- The specification at the arrays as the region finds them, as contents of the result array. -/
def result (c : Dev nD) : Vec Ideal S1024x4096 .f32 := fun i => G (xarr m c) (warr m c) (biasOf m c) (i 0) (i 1)

/-- At the last point of a run the output block is the combination of the three quantities AS THAT POINT LEAVES THEM
    (it reads each back after its update) with the bias block. -/
theorem out_at_last (c : Dev nD) (t : Fin cfg0.N) (h0 : ¬t.val % 4 = 0) (h3 : t.val % 4 = 3) :
    (outsAt0 m c t.val t.isLt).1
      = k0_pay1 (F := Ideal) (outsAt0 m c t.val t.isLt).2.2.1 (outsAt0 m c t.val t.isLt).2.1 (outsAt0 m c t.val t.isLt).2.2.2 (bblk m c t) := by
  rw [outsAt0_C m c t h0 h3]
  dsimp only
  refine (out_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h3) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2).trans ?_
  rw [← rowsq_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h3) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, ← acc_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h3) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, ← colsq_last (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h3) (xblk m c t) (wblk m c t) (bblk m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

/-- So, at an index, it is the blockwise arrangement of the specification for the run's column block. -/
theorem out_value (c : Dev nD) (t : Fin cfg0.N) (h3 : t.val % 4 = 3) (p : Fin 1024) (q : Fin 512) :
    (outsAt0 m c t.val t.isLt).1 (ix2 p q) = Gblocks (xarr m c) (warr m c) (biasOf m c) (4 * (t.val / 4)) p q := by
  have h0 : ¬t.val % 4 = 0 := by omega
  have hlt := lt32 t
  have hcol : col t.val q = col (4 * (t.val / 4)) q := Fin.ext (by simp only [col_val]; omega)
  rw [out_at_last m c t h0 h3]
  refine (out_step _ _ _ _ p q).trans ?_
  rw [rowsq_after, prod_after, colsq_after, h3, bblk_apply, hcol]
  rfl

/-- An index of the output's block at point `t`, in the array: the same row, column `512 (t / 4) + q`. -/
theorem out_emb (t : Fin cfg0.N) (p : Fin 1024) (q : Fin 512) :
    ((cfg0.win 3).blk t).view.emb (ix2 p q) = ix2 p (col (4 * (t.val / 4)) q) := by
  have hlt := lt32 t
  funext a; apply Fin.ext
  match a with
  | ⟨0, _⟩ => show win0_3.index t (0 : Fin 2) * 1024 + 1 * p.val = p.val; rw [(idx_o t).1]; omega
  | ⟨1, _⟩ => show win0_3.index t (1 : Fin 2) * 512 + 1 * q.val = 512 * (4 * (t.val / 4) / 4 % 8) + q.val; rw [(idx_o t).2]; omega

/-- WHAT A WRITE-BACK WRITES is its block of the specification. -/
theorem flushed_eq (c : Dev nD) (t : Fin cfg0.N) (hf : (cfg0.win 3).flush t = true) :
    (dats m 0 c).flushed 3 t = ((cfg0.win 3).blk t).view.read (Elt Ideal) (result m c) := by
  have h3 : t.val % 4 = 3 := (flush0_3 t).mp hf
  rw [flushed3]
  funext y
  show (outsAt0 m c t.val t.isLt).1 y = result m c (((cfg0.win 3).blk t).view.emb y)
  obtain ⟨p, q, rfl⟩ : ∃ (p : Fin 1024) (q : Fin 512), y = ix2 p q := ⟨y 0, y 1, eq_ix2 y⟩
  rw [out_value m c t h3 p q, Gblocks_eq _ _ _ _ (by omega), out_emb]
  rfl

/-- Every index of the result array is in the block written back at the last point of its column block's run. -/
theorem cover (i : S1024x4096.Idx) : ∃ t : Fin cfg0.N, (cfg0.win 3).flush t = true ∧ i ∈ ((cfg0.win 3).blk t).view.set := by
  have hi0 : (i 0).val < 1024 := (i 0).isLt
  have hi1 : (i 1).val < 4096 := (i 1).isLt
  have hN : cfg0.N = 32 := N_0
  let t : Fin cfg0.N := ⟨4 * ((i 1).val / 512) + 3, by rw [hN]; omega⟩
  have htv : t.val = 4 * ((i 1).val / 512) + 3 := rfl
  refine ⟨t, (flush0_3 t).mpr (by rw [htv]; omega), ?_⟩
  show i ∈ ((View.whole main_v3).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [(idx_o t).1]; omega
  | ⟨1, _⟩ => show win0_3.index t (1 : Fin 2) * 512 ≤ (i 1).val ∧ (i 1).val < win0_3.index t (1 : Fin 2) * 512 + 512; rw [(idx_o t).2, htv]; omega

/-- THE RESULT ARRAY after the run is the specification. -/
theorem final (c : Dev nD) : (dats m 0 c).arrAt 3 cfg0.N = result m c :=
  (dats m 0 c).arrAt_eq_of_cover 3 (result m c) (flushed_eq m c) cover

/-- The run, read: the result array at the specification, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KernelValue

end
-- ==== Proof.HostSide.lean ====
/-
  The arrays as the kernel's region finds them, as functions of the program's arguments: the input untouched; the
  prototypes the weights transposed then re-laid as 4096 rows of 2048 — the same two operations, in the same order,
  that the reference applies; the bias its one row `[1, 4096]`, read at column `o` as entry `o` of the argument.
-/
import proofs.«162144_j1580547974287_1_alg».proof.Proof.Blocks
import Idealize.ShloMosaic.Lib.StableHlo.Run
import Idealize.ShloMosaic.Lib.ValueLayout

noncomputable section

namespace Cert.KernelIdeal.HostSide

open Cert.KernelIdeal Cert.KernelIdeal.Gen Idealize.ShloMosaic Idealize.ShloMosaic.TcCoe Idealize.SL.Sem Idealize.ShloMosaic.StableHlo
open Idealize.ShloMosaic.ValueIdx Cert.KernelIdeal.Blocks

variable (m : (ℓ : Loc nD τ sig) → Buf (Elt Ideal) ℓ)

theorem xarr_eq (c : Dev nD) : xarr m c = m ((c : Thread nD τ).loc main_arg0) := V_main_arg0 m c

theorem warr_eq (c : Dev nD) :
    warr m c = shapeCast S4096x2048 (transpose S2048x4096 [1, 0] (m ((c : Thread nD τ).loc main_arg1)) transposes_S4096x2048_S2048x4096_1_0) shapeCasts_S2048x4096_S4096x2048 := by
  show (V m c main_v1 : S4096x2048.Idx → EReal) = _
  dsimp only [V, hostOps0]
  after_results
  rfl

theorem barr_eq (c : Dev nD) :
    barr m c = shapeCast S1x4096 (m ((c : Thread nD τ).loc main_arg2)) shapeCasts_S4096_S1x4096 := by
  show (V m c main_v2 : S1x4096.Idx → EReal) = _
  dsimp only [V, hostOps0]
  after_results
  rfl

/-- The bias's one row at column `o` is the argument's entry `o`. -/
theorem barr_apply (c : Dev nD) (o : Fin 4096) :
    barr m c (ix2 (0 : Fin 1) o) = m ((c : Thread nD τ).loc main_arg2) (ix1 o) := by
  rw [barr_eq]
  exact shapeCast_a_1a_apply _ _ 0 o

end Cert.KernelIdeal.HostSide

end
-- ==== Proof.RefValue.lean ====
/-
  THE REFERENCE COMPUTES THE SPECIFICATION. Its last operation read at row `p`, column `o`, through its operations one
  at a time: the two broadcasts of the row sums and of the column sums pick row `p` and column `o`; each host sum is
  its initial value (the word of zero) plus the sum over the 2048 positions; the `dot_general` is the sum of products
  over them; the negation is the negation; the bias's two broadcasts pick column `o`. The prototypes (the transposed,
  re-laid weights) stay the stage they are.
-/
import proofs.«162144_j1580547974287_1_alg».proof.Proof.Gen.ReferenceIdeal.Read
import proofs.«162144_j1580547974287_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

theorem ref_eq (X : FVec Ideal S1024x2048 .f32) (Wt : FVec Ideal S4096x2048 .f32) (b : FVec Ideal S4096 .f32) (p : Fin 1024) (o : Fin 4096) :
    val_main_v18 (F := Ideal) X Wt b (ix2 p o) = G X (val_main_v1 (F := Ideal) Wt) (fun o => b (ix1 o)) p o := by
  have i11 : idx_main_v11 (ix2 p o) = ix2 p (0 : Fin 1) := funext fun a => Fin.ext (by match a with | ⟨0, _⟩ => rfl | ⟨1, _⟩ => rfl)
  have i4 : idx_main_v4 (ix2 p (0 : Fin 1)) = ix1 p := funext fun a => Fin.ext (by match a with | ⟨0, _⟩ => rfl)
  have i3 : ∀ k : Fin 2048, idx_main_v3 (ix1 p) k = ix2 p k := fun k => funext fun a => Fin.ext (by match a with | ⟨0, _⟩ => rfl | ⟨1, _⟩ => rfl)
  have i13 : idx_main_v13 (ix2 p o) = ix2 (0 : Fin 1) o := funext fun a => Fin.ext (by match a with | ⟨0, _⟩ => rfl | ⟨1, _⟩ => rfl)
  have i7 : idx_main_v7 (ix2 (0 : Fin 1) o) = ix1 o := funext fun a => Fin.ext (by match a with | ⟨0, _⟩ => rfl)
  have i6 : ∀ k : Fin 2048, idx_main_v6 (ix1 o) k = ix2 o k := fun k => funext fun a => Fin.ext (by match a with | ⟨0, _⟩ => rfl | ⟨1, _⟩ => rfl)
  have il : ∀ k : Fin 2048, lidx_main_v8 (ix2 p o) k = ix2 p k := fun k => funext fun a => Fin.ext (by match a with | ⟨0, _⟩ => rfl | ⟨1, _⟩ => rfl)
  have ir : ∀ k : Fin 2048, ridx_main_v8 (ix2 p o) k = ix2 o k := fun k => funext fun a => Fin.ext (by match a with | ⟨0, _⟩ => rfl | ⟨1, _⟩ => rfl)
  have i17 : idx_main_v17 (ix2 p o) = ix2 (0 : Fin 1) o := funext fun a => Fin.ext (by match a with | ⟨0, _⟩ => rfl | ⟨1, _⟩ => rfl)
  have i16 : idx_main_v16 (ix2 (0 : Fin 1) o) = ix1 o := funext fun a => Fin.ext (by match a with | ⟨0, _⟩ => rfl)
  unfold G
  rw [val_main_v18_apply, val_main_v15_apply, val_main_v14_apply, val_main_v12_apply, val_main_v11_apply, val_main_v4_apply,
    val_main_v3_apply, val_main_v10_apply, val_main_v9_apply, val_main_v8_apply, val_main_v13_apply, val_main_v7_apply,
    val_main_v6_apply, val_main_v17_apply, val_main_v16_apply]
  simp only [i11, i4, i3, i13, i7, i6, il, ir, i17, i16, val_main_v2_apply, val_main_v5_apply, val_main_cst_apply,
    val_main_cst_0_apply, val_main_cst_1_apply, Ideal.subf_def, Ideal.addf_def, Ideal.mulf_def, Ideal.hostNegf_def, Ideal.negf_def,
    Ideal.ofBits_def]

end Cert.ReferenceIdeal.RefValue

end
-- ==== Proof.lean ====
/-
  The kernel computes, for an input `x` (1024 × 2048), weights `W` (4096 × 2048) and a bias `b` (4096),

      out(p, o) = −‖x_p − w_o‖² − b_o       written out as      −( (∑_d x(p,d)² − 2 · ∑_d x(p,d) · w(o,d)) + ∑_d w(o,d)² ) − b(o),

  where the prototypes `w` are the weights transposed and then re-laid, in row-major order, as 4096 rows of 2048 (the
  same two host operations in the kernel's program and in the reference, in the same order). The reference takes the
  three sums whole. The kernel walks a grid of 8 column blocks × 4 blocks of the long axis: for a column block it
  accumulates the three sums in scratch memory, from zero, one 512-long block of the long axis per step (casting the
  operands of the product to bf16 first, which over the extended reals is the identity), and at the fourth step
  combines them, negating by subtraction from zero, and writes the 1024 × 512 output block back.

  Over the extended reals the two are the same function: addition there is a commutative monoid, so a sum accumulated
  from zero block by block is the sum, and `0 − v = −v`. Nothing else is used — no distributivity, no cancellation — so
  the finiteness of the inputs is never opened. The idealized program is the printed program's own text read over the
  extended reals, with no operation replaced, so `preserves` is `True`.

  The modules, in order: BlockSum (the re-association), Spec (the result as one function `G`, the kernel's blockwise
  arrangement of it, and their equality), StepValues (what one grid step leaves in each buffer), LibColumn and
  StepAlgebra (those step values at an index), Blocks (which array entries a block holds), Fold (each running sum after
  any grid point), KernelValue (the result array after the run is `G`), HostSide (the kernel's host operations before the
  region), RefValue (the reference's last operation is `G`). Here: the five claims.
-/
import proofs.«162144_j1580547974287_1_alg».proof.Defs
import proofs.«162144_j1580547974287_1_alg».proof.Proof.Gen.Kernel
import proofs.«162144_j1580547974287_1_alg».proof.Proof.Gen.Kernel.Skeleton
import proofs.«162144_j1580547974287_1_alg».proof.Proof.Gen.Kernel.Launch
import proofs.«162144_j1580547974287_1_alg».proof.Proof.Gen.Kernel.Points
import proofs.«162144_j1580547974287_1_alg».proof.Proof.Gen.Kernel.Frame
import proofs.«162144_j1580547974287_1_alg».proof.Proof.Gen.KernelIdeal
import proofs.«162144_j1580547974287_1_alg».proof.Proof.Gen.KernelIdeal.Skeleton
import proofs.«162144_j1580547974287_1_alg».proof.Proof.Gen.KernelIdeal.Launch
import proofs.«162144_j1580547974287_1_alg».proof.Proof.Gen.KernelIdeal.Points
import proofs.«162144_j1580547974287_1_alg».proof.Proof.Gen.KernelIdeal.Frame
import proofs.«162144_j1580547974287_1_alg».proof.Proof.Gen.ReferenceIdeal
import proofs.«162144_j1580547974287_1_alg».proof.Proof.Gen.Pre_finite_inputs
import proofs.«162144_j1580547974287_1_alg».proof.Proof.Gen.KernelIdeal.Value
import proofs.«162144_j1580547974287_1_alg».proof.Proof.Gen.ReferenceIdeal.Run
import proofs.«162144_j1580547974287_1_alg».proof.Proof.Gen.ReferenceIdeal.Read
import proofs.«162144_j1580547974287_1_alg».proof.Proof.KernelValue
import proofs.«162144_j1580547974287_1_alg».proof.Proof.HostSide
import proofs.«162144_j1580547974287_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized program replaces no operation of the printed one. -/
theorem preserves : Cert.preserves_Kernel_KernelIdeal := trivial

/-- Both programs end with the result array at the specification `G` of the arguments: the kernel's by its run over
    the grid, the reference's by reading its last operation; from memories that agree on the arguments the two are the
    same array. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  refine (Cert.ReferenceIdeal.Read.val_main_v18_eq _ _ _).trans ?_
  funext i
  obtain ⟨p, o, rfl⟩ : ∃ (p : Fin 1024) (o : Fin 4096), i = ix2 p o := ⟨i 0, i 1, eq_ix2 i⟩
  refine (Cert.ReferenceIdeal.RefValue.ref_eq _ _ _ p o).trans ?_
  have hW : Cert.ReferenceIdeal.Read.val_main_v1 (F := Ideal) (m ((c.tc : Thread Cert.KernelIdeal.nD Cert.KernelIdeal.τ).loc Cert.KernelIdeal.main_arg1))
      = Cert.KernelIdeal.Blocks.warr m c := (Cert.KernelIdeal.HostSide.warr_eq m c).symm
  have hB : (fun o' : Fin 4096 => m ((c.tc : Thread Cert.KernelIdeal.nD Cert.KernelIdeal.τ).loc Cert.KernelIdeal.main_arg2) (ix1 o'))
      = Cert.KernelIdeal.KernelValue.biasOf m c := funext fun o' => (Cert.KernelIdeal.HostSide.barr_apply m c o').symm
  show _ = Cert.Spec.G (Cert.KernelIdeal.Blocks.xarr m c) (Cert.KernelIdeal.Blocks.warr m c) (Cert.KernelIdeal.KernelValue.biasOf m c) p o
  rw [Cert.KernelIdeal.HostSide.xarr_eq m c, ← hW, ← hB]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
